-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x128 : Shape := ⟨2, ![1024, 128]⟩
abbrev S128 : Shape := ⟨1, ![128]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S1024x128 .f32) (main_arg6 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x2048x1024 .f32) (main_arg1 : FVec F S1024x128 .f32) (main_arg2 : FVec F S128 .f32) (main_arg3 : FVec F S1024x128 .f32) (main_arg4 : FVec F S128 .f32) (main_arg5 : FVec F S1024x128 .f32) (main_arg6 : FVec F S128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_v13 main_v16
-- ==== Kernel.lean ====
abbrev S4x2048x1024 : Shape := ⟨3, ![4, 2048, 1024]⟩
abbrev S1024x128 : Shape := ⟨2, ![1024, 128]⟩
abbrev S128 : Shape := ⟨1, ![128]⟩
abbrev S1024x384 : Shape := ⟨2, ![1024, 384]⟩
abbrev S384 : Shape := ⟨1, ![384]⟩
abbrev S1x384 : Shape := ⟨2, ![1, 384]⟩
abbrev S4x2048x128 : Shape := ⟨3, ![4, 2048, 128]⟩
abbrev S1x512x1024 : Shape := ⟨3, ![1, 512, 1024]⟩
abbrev S1x512x128 : Shape := ⟨3, ![1, 512, 128]⟩
abbrev S512x1024 : Shape := ⟨2, ![512, 1024]⟩
abbrev S512x384 : Shape := ⟨2, ![512, 384]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S1024x384, .f32⟩
  | .hbm, ⟨8, _⟩ => ⟨S384, .f32⟩
  | .hbm, ⟨9, _⟩ => ⟨S1x384, .f32⟩
  | .hbm, ⟨10, _⟩ => ⟨S4x2048x128, .bf16⟩
  | .hbm, ⟨11, _⟩ => ⟨S4x2048x128, .bf16⟩
  | .hbm, ⟨12, _⟩ => ⟨S4x2048x128, .bf16⟩
  | .hbm, ⟨13, _⟩ => ⟨S4x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x384, .f32⟩
  | .local _ .vmem, ⟨3, _⟩ => ⟨S1x384, .f32⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x512x128, .f32⟩
  | .local _ .vmem, ⟨17, _⟩ => ⟨S1x512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x128_S1024x128_S1024x128_S1024x384_d1 : Shape.Concatenates [S1024x128, S1024x128, S1024x128] S1024x384 1
  concatenates_S128_S128_S128_S384_d0 : Shape.Concatenates [S128, S128, S128] S384 0
  shapeCasts_S384_S1x384 : S384.ShapeCasts S1x384
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  slices_S512x384_o0_0_S512x128 : S512x384.Slices ![0, 0] S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  slices_S512x384_o0_128_S512x128 : S512x384.Slices ![0, 128] S512x128
  slices_S512x384_o0_256_S512x128 : S512x384.Slices ![0, 256] S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  dot_S512x1024_S1024x384_S512x384_1_0_0_1_n_n_wf : DotDims.WF S512x1024 S1024x384 S512x384 [1] [0] [0] [1] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S4x2048x128.size a
  hwx0_3 : ∀ i : grid0.Coords, EltTy.bits .bf16 = 32 ∨ (Rect.block (s := S4x2048x128) S1x512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S4x2048x128.size a
  hwx0_4 : ∀ i : grid0.Coords, EltTy.bits .bf16 = 32 ∨ (Rect.block (s := S4x2048x128) S1x512x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S4x2048x128.size a
  hwx0_5 : ∀ i : grid0.Coords, EltTy.bits .bf16 = 32 ∨ (Rect.block (s := S4x2048x128) S1x512x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x128.size a
  hwx1_0 : ∀ i : grid1.Coords, EltTy.bits .bf16 = 32 ∨ (Rect.block (s := S4x2048x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x128.size a
  hwx1_1 : ∀ i : grid1.Coords, EltTy.bits .bf16 = 32 ∨ (Rect.block (s := S4x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x128.size a
  hwx1_2 : ∀ i : grid1.Coords, EltTy.bits .bf16 = 32 ∨ (Rect.block (s := S4x2048x128) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x128.size a
  hwx1_3 : ∀ i : grid1.Coords, EltTy.bits .f32 = 32 ∨ (Rect.block (s := S4x2048x128) S1x512x128.size (cc1_transform_3 i) (hinb1_3 i)).WholeWords (EltTy.packing .f32)

variable [Facts₀]

def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x128 : Shape := ⟨2, ![1024, 128]⟩
abbrev S128 : Shape := ⟨1, ![128]⟩
abbrev S4x2048x128 : Shape := ⟨3, ![4, 2048, 128]⟩
abbrev S1x1x128 : Shape := ⟨3, ![1, 1, 128]⟩
abbrev S4x2048x2048 : Shape := ⟨3, ![4, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S4x2048x128, .f32⟩
  | .hbm, ⟨8, _⟩ => ⟨S1x1x128, .f32⟩
  | .hbm, ⟨9, _⟩ => ⟨S4x2048x128, .f32⟩
  | .hbm, ⟨10, _⟩ => ⟨S4x2048x128, .f32⟩
  | .hbm, ⟨11, _⟩ => ⟨S4x2048x128, .f32⟩
  | .hbm, ⟨12, _⟩ => ⟨S1x1x128, .f32⟩
  | .hbm, ⟨13, _⟩ => ⟨S4x2048x128, .f32⟩
  | .hbm, ⟨14, _⟩ => ⟨S4x2048x128, .f32⟩
  | .hbm, ⟨15, _⟩ => ⟨S4x2048x128, .f32⟩
  | .hbm, ⟨16, _⟩ => ⟨S1x1x128, .f32⟩
  | .hbm, ⟨17, _⟩ => ⟨S4x2048x128, .f32⟩
  | .hbm, ⟨18, _⟩ => ⟨S4x2048x128, .f32⟩
  | .hbm, ⟨19, _⟩ => ⟨S4x2048x2048, .f32⟩
  | .hbm, ⟨20, _⟩ => ⟨S4x2048x2048, .f32⟩
  | .hbm, ⟨21, _⟩ => ⟨S4x2048x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  dot_S4x2048x1024_S1024x128_S4x2048x128_2_0_01_1_n_n_wf : DotDims.WF S4x2048x1024 S1024x128 S4x2048x128 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x128_S4x2048x128_2_1_1_2_0_0_wf : DotDims.WF S4x2048x2048 S4x2048x128 S4x2048x128 [2] [1] [1] [2] [0] [0]

variable [Facts₀]

def dot_S4x2048x1024_S1024x128_S4x2048x128_2_0_01_1_n_n : DotDims S4x2048x1024 S1024x128 S4x2048x128 where
  lhsContracting := [2]
  rhsContracting := [0]
  lhsNonContracting := [0, 1]
  rhsNonContracting := [1]
  lhsBatch := []
  rhsBatch := []
  wf := dot_S4x2048x1024_S1024x128_S4x2048x128_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x128_S4x2048x128_2_1_1_2_0_0 : DotDims S4x2048x2048 S4x2048x128 S4x2048x128 where
  lhsContracting := [2]
  rhsContracting := [1]
  lhsNonContracting := [1]
  rhsNonContracting := [2]
  lhsBatch := [0]
  rhsBatch := [0]
  wf := dot_S4x2048x2048_S4x2048x128_S4x2048x128_2_1_1_2_0_0_wf

class Facts : Prop extends Facts₀ where

variable [Facts]
-- ==== Proof.Bits.ProjRegion.lean ====
/-
  The projection call (the first of the two kernel calls): one grid point stages a [1, 512, 1024] block of the
  activations, the whole [1024, 384] joined weight matrix and the [1, 384] joined bias row, and its body stores three
  [1, 512, 128] blocks — the three column thirds of (block · weights + bias). Stated at a parameter `V`, the contents of
  the core's buffers when the call is entered: each window's block at a point, what the body leaves in each output
  window's buffer as a function of the three input blocks, the body's triple, the call's proof data and the obligation
  the pipeline asks of the body at every point.
-/
import proofs.«118254_j6880537608586_1_alg».proof.Proof.Gen.Kernel.Launch
import proofs.«118254_j6880537608586_1_alg».proof.Proof.Gen.Kernel.Skeleton
import proofs.«118254_j6880537608586_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, for any proof data over `V`'s arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the (one) block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the (one) block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_x : Rect S1x512x1024 := Rect.unit (s := S1x512x1024) ![0, 0, 0] S1x512x1024.size inb_S1x512x1024_S1x512x1024_0_0_0
abbrev r0_w : Rect S1024x384 := Rect.unit (s := S1024x384) ![0, 0] S1024x384.size inb_S1024x384_S1024x384_0_0
abbrev r0_b : Rect S1x384 := Rect.unit (s := S1x384) ![0, 0] S1x384.size inb_S1x384_S1x384_0_0
abbrev r0_o : Rect S1x512x128 := Rect.unit (s := S1x512x128) ![0, 0, 0] S1x512x128.size inb_S1x512x128_S1x512x128_0_0_0

/-! ## What the body leaves in each output window's buffer -/

/-- The first output's buffer after the body: one whole-buffer store of the first column third. -/
def out0_3 (x0 : Vec F S1x512x1024 .f32) (x1 : Vec F S1024x384 .f32) (x2 : Vec F S1x384 .f32) : Vec F S1x512x128 .bf16 :=
  View.canon [⟨r0_o, k0_pay2 (View.ld x0 r0_x) (View.ld x1 r0_w) (View.ld x2 r0_b)⟩]

/-- The second output's buffer after the body: the second column third. -/
def out0_4 (x0 : Vec F S1x512x1024 .f32) (x1 : Vec F S1024x384 .f32) (x2 : Vec F S1x384 .f32) : Vec F S1x512x128 .bf16 :=
  View.canon [⟨r0_o, k0_pay3 (View.ld x0 r0_x) (View.ld x1 r0_w) (View.ld x2 r0_b)⟩]

/-- The third output's buffer after the body: the last column third. -/
def out0_5 (x0 : Vec F S1x512x1024 .f32) (x1 : Vec F S1024x384 .f32) (x2 : Vec F S1x384 .f32) : Vec F S1x512x128 .bf16 :=
  View.canon [⟨r0_o, k0_pay4 (View.ld x0 r0_x) (View.ld x1 r0_w) (View.ld x2 r0_b)⟩]

/-- A whole-buffer store covers the buffer. -/
theorem cover0_o (p0 : Vec F S1x512x128 .bf16) (y : S1x512x128.Idx) :
    ∃ pc ∈ ([⟨r0_o, p0⟩] : List (View.Piece (Elt F) S1x512x128 .bf16)), y ∈ pc.1.set :=
  View.cover_of_tiled [⟨r0_o, p0⟩] S1x512x128.size (by rfl) y

/-! ## The body's triple -/

set_option maxHeartbeats 1000000 in
/-- The body on whole staging memrefs, the inputs' at contents `x0 x1 x2` and the outputs' at anything, runs to the
    continuation holding the inputs' as they were and each output's at `out0_W` of the inputs'. -/
theorem sound_kernel0 (c : Dev nD) (E : Set ℕ) (i : grid0.Coords) (arg2 : Memref sig .tc .vmem S1x512x1024 .f32) (harg2 : arg2.IsWhole) (arg3 : Memref sig .tc .vmem S1024x384 .f32) (harg3 : arg3.IsWhole) (arg4 : Memref sig .tc .vmem S1x384 .f32) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole)
    (x0 : Vec F S1x512x1024 .f32) (x1 : Vec F S1024x384 .f32) (x2 : Vec F S1x384 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The call's proof data -/

/-- The proof data of the projection call on core `c`: the arrays as the call finds them; after the body at point
    `t` each input's buffer at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Bits.AttnRegion.lean ====
/-
  The attention call (the second of the two kernel calls): one grid point stages a [1, 512, 128] block of the queries and
  the whole [1, 2048, 128] slabs of keys and values of the same batch entry, and its body stores one [1, 512, 128] block:
  cos(queries · keysᵀ) · values. Stated at a parameter `V`, the contents of the core's buffers when the call is entered:
  each window's block at a point, what the body leaves in the output window's buffer as a function of the three input
  blocks, the body's triple, the call's proof data and the obligation the pipeline asks of the body at every point.
-/
import proofs.«118254_j6880537608586_1_alg».proof.Proof.Gen.Kernel.Launch
import proofs.«118254_j6880537608586_1_alg».proof.Proof.Gen.Kernel.Skeleton
import proofs.«118254_j6880537608586_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds the point's block, for any proof data over `V`'s arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch entry's slab at every point, fetched there or not (the slab changes only
    with the batch coordinate). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0

/-! ## What the body leaves in the output window's buffer -/

/-- The output's buffer after the body: one whole-buffer store of cos(q · kᵀ) · v. -/
def out1_3 (x0 : Vec F S1x512x128 .bf16) (x1 : Vec F S1x2048x128 .bf16) (x2 : Vec F S1x2048x128 .bf16) : Vec F S1x512x128 .f32 :=
  View.canon [⟨r1_q, k1_pay1 (View.ld x0 r1_q) (View.ld x1 r1_kv) (View.ld x2 r1_kv)⟩]

/-- A whole-buffer store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

/-! ## The body's triple -/

set_option maxHeartbeats 1000000 in
/-- The body on whole staging memrefs, the inputs' at contents `x0 x1 x2` and the output's at anything, runs to the
    continuation holding the inputs' as they were and the output's at `out1_3` of the inputs'. -/
theorem sound_kernel1 (c : Dev nD) (E : Set ℕ) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x128 .f32) (harg5 : arg5.IsWhole)
    (x0 : Vec F S1x512x128 .bf16) (x1 : Vec F S1x2048x128 .bf16) (x2 : Vec F S1x2048x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The call's proof data -/

/-- The proof data of the attention call on core `c`: the arrays as the call finds them; after the body at point `t`
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Bits.MainRun.lean ====
/-
  The whole run of @main: three host operations (the weight matrices joined along the lanes, the bias vectors joined
  and reshaped to a row), the projection call, the attention call. The contents of the core's buffers at each boundary
  are a fold from the launch memory: after the host operations; after the projection call (its three output arrays at
  what its write-backs leave); after the attention call (its output array likewise). Every weakly fair execution
  terminates, the seven arguments end as launched, and the result array ends at what the attention call's write-backs
  leave of the arrays the projection call left.
-/
import proofs.«118254_j6880537608586_1_alg».proof.Proof.Gen.Kernel.Launch
import proofs.«118254_j6880537608586_1_alg».proof.Proof.Gen.Kernel.Skeleton
import proofs.«118254_j6880537608586_1_alg».proof.Proof.Gen.Kernel.Points
import proofs.«118254_j6880537608586_1_alg».proof.Proof.Bits.ProjRegion
import proofs.«118254_j6880537608586_1_alg».proof.Proof.Bits.AttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit (the attention call's entry): its arrays at what the pipeline leaves, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched; the result is the attention call's output array -/

/-- The host operations write only the three buffers they define. -/
theorem W1_of_not_written (c : Dev nD) (b : Ref sig .tc) (hb : b ≠ main_v0 ∧ b ≠ main_v1 ∧ b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne hb.1, StableHlo.devRef_ne_of_ne hb.2.1, StableHlo.devRef_ne_of_ne hb.2.2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_written m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_not_written m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_not_written m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_not_written m ρ c main_arg6 (by decide)
    _ = m ((c : Thread nD τ).loc main_arg6) := rfl

theorem W3_main_v4 (c : Dev nD) : W3 m ρ c (Proc.devRef .tc main_v4) = (dat1 (V2 m ρ) c).arrAt 3 cfg1.N :=
  W3_arr m ρ c 3

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The projection call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting;
    the result array ends at the attention call's output array, and the seven arguments end as launched. -/
theorem run_main : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_main_v4 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.Kernel.Fr

end
-- ==== Proof.Ideal.ProjRegion.lean ====
/-
  The projection call (the first of the two kernel calls): one grid point stages a [1, 512, 1024] block of the
  activations, the whole [1024, 384] joined weight matrix and the [1, 384] joined bias row, and its body stores three
  [1, 512, 128] blocks — the three column thirds of (block · weights + bias). Stated at a parameter `V`, the contents of
  the core's buffers when the call is entered: each window's block at a point, what the body leaves in each output
  window's buffer as a function of the three input blocks, the body's triple, the call's proof data and the obligation
  the pipeline asks of the body at every point.
-/
import proofs.«118254_j6880537608586_1_alg».proof.Proof.Gen.KernelIdeal.Launch
import proofs.«118254_j6880537608586_1_alg».proof.Proof.Gen.KernelIdeal.Skeleton
import proofs.«118254_j6880537608586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, for any proof data over `V`'s arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the (one) block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds the (one) block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_x : Rect S1x512x1024 := Rect.unit (s := S1x512x1024) ![0, 0, 0] S1x512x1024.size inb_S1x512x1024_S1x512x1024_0_0_0
abbrev r0_w : Rect S1024x384 := Rect.unit (s := S1024x384) ![0, 0] S1024x384.size inb_S1024x384_S1024x384_0_0
abbrev r0_b : Rect S1x384 := Rect.unit (s := S1x384) ![0, 0] S1x384.size inb_S1x384_S1x384_0_0
abbrev r0_o : Rect S1x512x128 := Rect.unit (s := S1x512x128) ![0, 0, 0] S1x512x128.size inb_S1x512x128_S1x512x128_0_0_0

/-! ## What the body leaves in each output window's buffer -/

/-- The first output's buffer after the body: one whole-buffer store of the first column third. -/
def out0_3 (x0 : Vec F S1x512x1024 .f32) (x1 : Vec F S1024x384 .f32) (x2 : Vec F S1x384 .f32) : Vec F S1x512x128 .bf16 :=
  View.canon [⟨r0_o, k0_pay2 (View.ld x0 r0_x) (View.ld x1 r0_w) (View.ld x2 r0_b)⟩]

/-- The second output's buffer after the body: the second column third. -/
def out0_4 (x0 : Vec F S1x512x1024 .f32) (x1 : Vec F S1024x384 .f32) (x2 : Vec F S1x384 .f32) : Vec F S1x512x128 .bf16 :=
  View.canon [⟨r0_o, k0_pay3 (View.ld x0 r0_x) (View.ld x1 r0_w) (View.ld x2 r0_b)⟩]

/-- The third output's buffer after the body: the last column third. -/
def out0_5 (x0 : Vec F S1x512x1024 .f32) (x1 : Vec F S1024x384 .f32) (x2 : Vec F S1x384 .f32) : Vec F S1x512x128 .bf16 :=
  View.canon [⟨r0_o, k0_pay4 (View.ld x0 r0_x) (View.ld x1 r0_w) (View.ld x2 r0_b)⟩]

/-- A whole-buffer store covers the buffer. -/
theorem cover0_o (p0 : Vec F S1x512x128 .bf16) (y : S1x512x128.Idx) :
    ∃ pc ∈ ([⟨r0_o, p0⟩] : List (View.Piece (Elt F) S1x512x128 .bf16)), y ∈ pc.1.set :=
  View.cover_of_tiled [⟨r0_o, p0⟩] S1x512x128.size (by rfl) y

/-! ## The body's triple -/

set_option maxHeartbeats 1000000 in
/-- The body on whole staging memrefs, the inputs' at contents `x0 x1 x2` and the outputs' at anything, runs to the
    continuation holding the inputs' as they were and each output's at `out0_W` of the inputs'. -/
theorem sound_kernel0 (c : Dev nD) (E : Set ℕ) (i : grid0.Coords) (arg2 : Memref sig .tc .vmem S1x512x1024 .f32) (harg2 : arg2.IsWhole) (arg3 : Memref sig .tc .vmem S1024x384 .f32) (harg3 : arg3.IsWhole) (arg4 : Memref sig .tc .vmem S1x384 .f32) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole)
    (x0 : Vec F S1x512x1024 .f32) (x1 : Vec F S1024x384 .f32) (x2 : Vec F S1x384 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The call's proof data -/

/-- The proof data of the projection call on core `c`: the arrays as the call finds them; after the body at point
    `t` each input's buffer at its block and each output's at `out0_W` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Ideal.AttnRegion.lean ====
/-
  The attention call (the second of the two kernel calls): one grid point stages a [1, 512, 128] block of the queries and
  the whole [1, 2048, 128] slabs of keys and values of the same batch entry, and its body stores one [1, 512, 128] block:
  cos(queries · keysᵀ) · values. Stated at a parameter `V`, the contents of the core's buffers when the call is entered:
  each window's block at a point, what the body leaves in the output window's buffer as a function of the three input
  blocks, the body's triple, the call's proof data and the obligation the pipeline asks of the body at every point.
-/
import proofs.«118254_j6880537608586_1_alg».proof.Proof.Gen.KernelIdeal.Launch
import proofs.«118254_j6880537608586_1_alg».proof.Proof.Gen.KernelIdeal.Skeleton
import proofs.«118254_j6880537608586_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds the point's block, for any proof data over `V`'s arrays whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch entry's slab at every point, fetched there or not (the slab changes only
    with the batch coordinate). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0

/-! ## What the body leaves in the output window's buffer -/

/-- The output's buffer after the body: one whole-buffer store of cos(q · kᵀ) · v. -/
def out1_3 (x0 : Vec F S1x512x128 .bf16) (x1 : Vec F S1x2048x128 .bf16) (x2 : Vec F S1x2048x128 .bf16) : Vec F S1x512x128 .f32 :=
  View.canon [⟨r1_q, k1_pay1 (View.ld x0 r1_q) (View.ld x1 r1_kv) (View.ld x2 r1_kv)⟩]

/-- A whole-buffer store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

/-! ## The body's triple -/

set_option maxHeartbeats 1000000 in
/-- The body on whole staging memrefs, the inputs' at contents `x0 x1 x2` and the output's at anything, runs to the
    continuation holding the inputs' as they were and the output's at `out1_3` of the inputs'. -/
theorem sound_kernel1 (c : Dev nD) (E : Set ℕ) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x128 .f32) (harg5 : arg5.IsWhole)
    (x0 : Vec F S1x512x128 .bf16) (x1 : Vec F S1x2048x128 .bf16) (x2 : Vec F S1x2048x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The call's proof data -/

/-- The proof data of the attention call on core `c`: the arrays as the call finds them; after the body at point `t`
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Ideal.MainRun.lean ====
/-
  The whole run of @main: three host operations (the weight matrices joined along the lanes, the bias vectors joined
  and reshaped to a row), the projection call, the attention call. The contents of the core's buffers at each boundary
  are a fold from the launch memory: after the host operations; after the projection call (its three output arrays at
  what its write-backs leave); after the attention call (its output array likewise). Every weakly fair execution
  terminates, the seven arguments end as launched, and the result array ends at what the attention call's write-backs
  leave of the arrays the projection call left.
-/
import proofs.«118254_j6880537608586_1_alg».proof.Proof.Gen.KernelIdeal.Launch
import proofs.«118254_j6880537608586_1_alg».proof.Proof.Gen.KernelIdeal.Skeleton
import proofs.«118254_j6880537608586_1_alg».proof.Proof.Gen.KernelIdeal.Points
import proofs.«118254_j6880537608586_1_alg».proof.Proof.Ideal.ProjRegion
import proofs.«118254_j6880537608586_1_alg».proof.Proof.Ideal.AttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit (the attention call's entry): its arrays at what the pipeline leaves, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched; the result is the attention call's output array -/

/-- The host operations write only the three buffers they define. -/
theorem W1_of_not_written (c : Dev nD) (b : Ref sig .tc) (hb : b ≠ main_v0 ∧ b ≠ main_v1 ∧ b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne hb.1, StableHlo.devRef_ne_of_ne hb.2.1, StableHlo.devRef_ne_of_ne hb.2.2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_written m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_not_written m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_not_written m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_not_written m ρ c main_arg6 (by decide)
    _ = m ((c : Thread nD τ).loc main_arg6) := rfl

theorem W3_main_v4 (c : Dev nD) : W3 m ρ c (Proc.devRef .tc main_v4) = (dat1 (V2 m ρ) c).arrAt 3 cfg1.N :=
  W3_arr m ρ c 3

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The projection call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting;
    the result array ends at the attention call's output array, and the seven arguments end as launched. -/
theorem run_main : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (W3_main_v4 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Fr

end
-- ==== Proof.Spec.lean ====
/-
  The mathematics both programs compute, over plain coordinates (batch entry, sequence position, feature), on the
  extended reals: a dense layer x · W + b, and the attention without softmax, cos(Q · Kᵀ) · V, per batch entry.
  The result of either program is `attn (dense x Wq bq) (dense x Wk bk) (dense x Wv bv)`.
-/
import Idealize.ShloMosaic.PureOps.Ideal
import Idealize.ShloMosaic.Lib.ValueIdx

noncomputable section

namespace Cert.Spec

open Idealize.ShloMosaic

/-- The dense layer at (batch entry `bi`, position `l`, feature `k`): the row of `x` against column `k` of `w`, plus
    the bias entry. -/
def dense (x : Fin 4 → Fin 2048 → Fin 1024 → EReal) (w : Fin 1024 → Fin 128 → EReal) (b : Fin 128 → EReal) :
    Fin 4 → Fin 2048 → Fin 128 → EReal :=
  fun bi l k => (∑ d : Fin 1024, x bi l d * w d k) + b k

/-- Attention without softmax at (batch entry `bi`, query position `l`, feature `j`): over the key positions `p`,
    the cosine of the score (query row against key row) times the value entry. -/
def attn (q k v : Fin 4 → Fin 2048 → Fin 128 → EReal) : Fin 4 → Fin 2048 → Fin 128 → EReal :=
  fun bi l j => ∑ p : Fin 2048, Ideal.cos (∑ f : Fin 128, q bi l f * k bi p f) * v bi p j

/-- Lane `k` of the third of a 384-lane row that starts at lane `o`. -/
abbrev lane (o : Nat) (h : o + 128 ≤ 384) (k : Fin 128) : Fin 384 := ⟨o + k.val, by omega⟩

end Cert.Spec

end
-- ==== Proof.Ideal.ProjValue.lean ====
/- The projection call's three output arrays after the call, read at an entry: a dense layer of the activations against
   a third of the joined weight matrix's lanes, plus the same third of the joined bias row. -/
import proofs.«118254_j6880537608586_1_alg».proof.Proof.Ideal.ProjRegion
import proofs.«118254_j6880537608586_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjVal

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (V : (c : Dev nD) → (b : Ref sig .tc) → Buf (Elt Ideal) ((c : Thread nD τ).loc b))

/-- The activations as the call finds them, by coordinates. -/
def xs (c : Dev nD) : Fin 4 → Fin 2048 → Fin 1024 → EReal := fun bi l d => V c main_arg0 (ix3 bi l d)
/-- The 128 lanes from lane `o` of the joined weight matrix as the call finds it. -/
def wcat (c : Dev nD) (o : Nat) (h : o + 128 ≤ 384) : Fin 1024 → Fin 128 → EReal := fun d k => V c main_v0 (ix2 d (Spec.lane o h k))
/-- The 128 lanes from lane `o` of the joined bias row as the call finds it. -/
def bcat (c : Dev nD) (o : Nat) (h : o + 128 ≤ 384) : Fin 128 → EReal := fun k => V c main_v2 (ix2 (0 : Fin 1) (Spec.lane o h k))

/-! ## The body's arithmetic at an entry -/

/-- The product's left operand is read at the result's row. -/
theorem lhs_dot_0 (i : S512x384.Idx) (q : dot_S512x1024_S1024x384_S512x384_1_0_0_1_n_n.contr.Idx) :
    (dot_S512x1024_S1024x384_S512x384_1_0_0_1_n_n.lhsIdx i q 0).val = (i 0).val := by
  unfold DotDims.lhsIdx
  rw [dif_neg (show ¬(0 : Fin S512x1024.rank) ∈ dot_S512x1024_S1024x384_S512x384_1_0_0_1_n_n.lhsBatch by decide), dif_pos (show (0 : Fin S512x1024.rank) ∈ dot_S512x1024_S1024x384_S512x384_1_0_0_1_n_n.lhsNonContracting by decide)]
  rfl
/-- … and at the contraction position along its columns. -/
theorem lhs_dot_1 (i : S512x384.Idx) (q : dot_S512x1024_S1024x384_S512x384_1_0_0_1_n_n.contr.Idx) :
    (dot_S512x1024_S1024x384_S512x384_1_0_0_1_n_n.lhsIdx i q 1).val = (q ⟨0, by decide⟩).val :=
  dot_S512x1024_S1024x384_S512x384_1_0_0_1_n_n.lhsIdx_val_of_single rfl i q
/-- The right operand is read at the contraction position along its rows. -/
theorem rhs_dot_0 (i : S512x384.Idx) (q : dot_S512x1024_S1024x384_S512x384_1_0_0_1_n_n.contr.Idx) :
    (dot_S512x1024_S1024x384_S512x384_1_0_0_1_n_n.rhsIdx i q 0).val = (q ⟨0, by decide⟩).val :=
  dot_S512x1024_S1024x384_S512x384_1_0_0_1_n_n.rhsIdx_val_of_single rfl i q
/-- … and at the result's column. -/
theorem rhs_dot_1 (i : S512x384.Idx) (q : dot_S512x1024_S1024x384_S512x384_1_0_0_1_n_n.contr.Idx) :
    (dot_S512x1024_S1024x384_S512x384_1_0_0_1_n_n.rhsIdx i q 1).val = (i 1).val := by
  unfold DotDims.rhsIdx
  rw [dif_neg (show ¬(1 : Fin S1024x384.rank) ∈ dot_S512x1024_S1024x384_S512x384_1_0_0_1_n_n.rhsBatch by decide), dif_pos (show (1 : Fin S1024x384.rank) ∈ dot_S512x1024_S1024x384_S512x384_1_0_0_1_n_n.rhsNonContracting by decide)]
  rfl

/-- The matrix product of a [512, 1024] by a [1024, 384] operand into zeros, at (p, q): the row against the column. -/
theorem matmul_at (a : FVec Ideal S512x1024 .bf16) (b : FVec Ideal S1024x384 .bf16) (p : Fin 512) (q : Fin 384) :
    matmul dot_S512x1024_S1024x384_S512x384_1_0_0_1_n_n none a b (constant (F := Ideal) S512x384 .f32 0x00000000#32) (ix2 p q)
      = ∑ d : Fin 1024, a (ix2 p d) * b (ix2 d q) := by
  refine (Ideal.matmul_constant_zero_apply dot_S512x1024_S1024x384_S512x384_1_0_0_1_n_n none a b (ix2 p q)).trans ?_
  rw [← Equiv.sum_comp (contrEquiv1 dot_S512x1024_S1024x384_S512x384_1_0_0_1_n_n 1024 rfl rfl).symm]
  refine Finset.sum_congr rfl fun k _ => ?_
  have hk := contrEquiv1_symm_val dot_S512x1024_S1024x384_S512x384_1_0_0_1_n_n 1024 rfl rfl k
  have el : dot_S512x1024_S1024x384_S512x384_1_0_0_1_n_n.lhsIdx (ix2 p q) ((contrEquiv1 dot_S512x1024_S1024x384_S512x384_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x384_S512x384_1_0_0_1_n_n.rhsIdx (ix2 p q) ((contrEquiv1 dot_S512x1024_S1024x384_S512x384_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- The body's accumulator at (p, q): row p of the activation block against column q of the weights, plus entry q of
    the bias row. The changes of float format are the identity on the extended reals. -/
theorem pay1_apply (v0 : FVec Ideal S1x512x1024 .f32) (v3 : FVec Ideal S1024x384 .f32) (v7 : FVec Ideal S1x384 .f32) (p : Fin 512) (q : Fin 384) :
    k0_pay1 (F := Ideal) v0 v3 v7 (ix2 p q) = (∑ d : Fin 1024, v0 (ix3 (0 : Fin 1) p d) * v3 (ix2 d q)) + v7 (ix2 (0 : Fin 1) q) := by
  unfold k0_pay1
  rw [addf_apply, matmul_at, broadcastTo_1b_ab_apply, shapeCast_self v7]
  congr 1
  refine Finset.sum_congr rfl fun d _ => ?_
  rw [truncf_apply, truncf_apply, shapeCast_self v3, shapeCast_1ab_ab_apply]

/-- What the body stores to the first output: the accumulator's lanes 0 to 127, as a [1, 512, 128] block. -/
theorem pay2_apply (v0 : FVec Ideal S1x512x1024 .f32) (v3 : FVec Ideal S1024x384 .f32) (v7 : FVec Ideal S1x384 .f32) (u : Fin 1) (p : Fin 512) (k : Fin 128) :
    k0_pay2 (F := Ideal) v0 v3 v7 (ix3 u p k)
      = (∑ d : Fin 1024, v0 (ix3 (0 : Fin 1) p d) * v3 (ix2 d (Spec.lane 0 (by decide) k))) + v7 (ix2 (0 : Fin 1) (Spec.lane 0 (by decide) k)) := by
  unfold k0_pay2
  rw [shapeCast_ab_1ab_apply, truncf_apply, slice2_axis1_apply 0 _ _ p k (Spec.lane 0 (by decide) k) rfl, pay1_apply]

/-- What the body stores to the second output: the accumulator's lanes 128 to 255. -/
theorem pay3_apply (v0 : FVec Ideal S1x512x1024 .f32) (v3 : FVec Ideal S1024x384 .f32) (v7 : FVec Ideal S1x384 .f32) (u : Fin 1) (p : Fin 512) (k : Fin 128) :
    k0_pay3 (F := Ideal) v0 v3 v7 (ix3 u p k)
      = (∑ d : Fin 1024, v0 (ix3 (0 : Fin 1) p d) * v3 (ix2 d (Spec.lane 128 (by decide) k))) + v7 (ix2 (0 : Fin 1) (Spec.lane 128 (by decide) k)) := by
  unfold k0_pay3
  rw [shapeCast_ab_1ab_apply, truncf_apply, slice2_axis1_apply 128 _ _ p k (Spec.lane 128 (by decide) k) rfl, pay1_apply]

/-- What the body stores to the third output: the accumulator's lanes 256 to 383. -/
theorem pay4_apply (v0 : FVec Ideal S1x512x1024 .f32) (v3 : FVec Ideal S1024x384 .f32) (v7 : FVec Ideal S1x384 .f32) (u : Fin 1) (p : Fin 512) (k : Fin 128) :
    k0_pay4 (F := Ideal) v0 v3 v7 (ix3 u p k)
      = (∑ d : Fin 1024, v0 (ix3 (0 : Fin 1) p d) * v3 (ix2 d (Spec.lane 256 (by decide) k))) + v7 (ix2 (0 : Fin 1) (Spec.lane 256 (by decide) k)) := by
  unfold k0_pay4
  rw [shapeCast_ab_1ab_apply, truncf_apply, slice2_axis1_apply 256 _ _ p k (Spec.lane 256 (by decide) k) rfl, pay1_apply]

/-! ## From the blocks to the arrays -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The dense layer of the activations against the 128 lanes from lane `o` of the joined weights and bias row, as one
    function of an output array's index. -/
def G (c : Dev nD) (o : Nat) (h : o + 128 ≤ 384) : S4x2048x128.Idx → EReal :=
  fun i => Spec.dense (xs V c) (wcat V c o h) (bcat V c o h) (i 0) (i 1) (i 2)

/-- The printed index maps, decided over the 16 grid points: the three outputs' blocks sit where the activations' block
    does — batch entry and row block from the point, lane block 0 —, both below 4; the weights' and the bias row's one
    block is block 0. -/
theorem idx_facts : ∀ t : Fin cfg0.N,
    win0_0.index t (0 : Fin 3) ≤ 3 ∧ win0_0.index t (1 : Fin 3) ≤ 3 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_0.index t (0 : Fin 3) ∧ win0_3.index t (1 : Fin 3) = win0_0.index t (1 : Fin 3) ∧ win0_3.index t (2 : Fin 3) = 0
    ∧ win0_4.index t (0 : Fin 3) = win0_0.index t (0 : Fin 3) ∧ win0_4.index t (1 : Fin 3) = win0_0.index t (1 : Fin 3) ∧ win0_4.index t (2 : Fin 3) = 0
    ∧ win0_5.index t (0 : Fin 3) = win0_0.index t (0 : Fin 3) ∧ win0_5.index t (1 : Fin 3) = win0_0.index t (1 : Fin 3) ∧ win0_5.index t (2 : Fin 3) = 0 :=
  (by decide +kernel : ∀ t : Fin grid0.N, _)

/-- Every (batch entry, row block) is some point's. -/
theorem idx_onto : ∀ (q0 : Fin 4) (q1 : Fin 4), ∃ t : Fin cfg0.N, win0_0.index t (0 : Fin 3) = q0.val ∧ win0_0.index t (1 : Fin 3) = q1.val :=
  (by decide +kernel : ∀ (q0 : Fin 4) (q1 : Fin 4), ∃ t : Fin grid0.N, win0_0.index t (0 : Fin 3) = q0.val ∧ win0_0.index t (1 : Fin 3) = q1.val)

/-- The weights' block is the whole matrix: an entry of it sits at its own coordinates. -/
theorem emb_w (t : Fin cfg0.N) (d : Fin 1024) (q : Fin 384) : ((cfg0.win 1).blk t).view.emb (ix2 d q) = ix2 d q := by
  obtain ⟨-, -, -, e0, e1, -⟩ := idx_facts t
  funext a; apply Fin.ext
  match a with
  | ⟨0, _⟩ => show win0_1.index t (0 : Fin 2) * 1024 + 1 * d.val = d.val; omega
  | ⟨1, _⟩ => show win0_1.index t (1 : Fin 2) * 384 + 1 * q.val = q.val; omega

/-- The bias row's block is the whole row. -/
theorem emb_b (t : Fin cfg0.N) (z : Fin 1) (q : Fin 384) : ((cfg0.win 2).blk t).view.emb (ix2 z q) = ix2 z q := by
  obtain ⟨-, -, -, -, -, e0, e1, -⟩ := idx_facts t
  funext a; apply Fin.ext
  match a with
  | ⟨0, _⟩ => show win0_2.index t (0 : Fin 2) * 1 + 1 * z.val = z.val; omega
  | ⟨1, _⟩ => show win0_2.index t (1 : Fin 2) * 384 + 1 * q.val = q.val; omega

/-- The activations' block at a point, read at an index of the block. -/
theorem iblk_x (c : Dev nD) (t : Fin cfg0.N) (j : S1x512x1024.Idx) : iblk0 V c 0 t j = V c main_arg0 (((cfg0.win 0).blk t).view.emb j) := rfl
/-- The weights' block is the whole matrix. -/
theorem iblk_w (c : Dev nD) (t : Fin cfg0.N) (d : Fin 1024) (q : Fin 384) : iblk0 V c 1 t (ix2 d q) = V c main_v0 (ix2 d q) :=
  (rfl : iblk0 V c 1 t (ix2 d q) = V c main_v0 (((cfg0.win 1).blk t).view.emb (ix2 d q))).trans (congrArg (V c main_v0) (emb_w t d q))
/-- The bias row's block is the whole row. -/
theorem iblk_b (c : Dev nD) (t : Fin cfg0.N) (z : Fin 1) (q : Fin 384) : iblk0 V c 2 t (ix2 z q) = V c main_v2 (ix2 z q) :=
  (rfl : iblk0 V c 2 t (ix2 z q) = V c main_v2 (((cfg0.win 2).blk t).view.emb (ix2 z q))).trans (congrArg (V c main_v2) (emb_b t z q))

/-- Where row `p` of the point's blocks sits in the arrays: at one batch entry `b` and one row `r`, the same for the
    first output's block (lane `k` at lane `k`) and for the activations' block (feature `d` at feature `d`). -/
theorem emb_out3 (t : Fin cfg0.N) (u : Fin 1) (p : Fin 512) (k : Fin 128) : ∃ (b : Fin 4) (r : Fin 2048),
    ((cfg0.win 3).blk t).view.emb (ix3 u p k) = ix3 b r k
    ∧ ∀ d : Fin 1024, ((cfg0.win 0).blk t).view.emb (ix3 (0 : Fin 1) p d) = ix3 b r d := by
  obtain ⟨h0, h1, h2, -, -, -, -, e0, e1, e2, -⟩ := idx_facts t
  have hu : u.val = 0 := by omega
  refine ⟨⟨win0_0.index t (0 : Fin 3), by omega⟩, ⟨win0_0.index t (1 : Fin 3) * 512 + p.val, by omega⟩, ?_, fun d => ?_⟩
  · funext a; apply Fin.ext
    match a with
    | ⟨0, _⟩ => show win0_3.index t (0 : Fin 3) * 1 + 1 * u.val = win0_0.index t (0 : Fin 3); omega
    | ⟨1, _⟩ => show win0_3.index t (1 : Fin 3) * 512 + 1 * p.val = win0_0.index t (1 : Fin 3) * 512 + p.val; omega
    | ⟨2, _⟩ => show win0_3.index t (2 : Fin 3) * 128 + 1 * k.val = k.val; omega
  · funext a; apply Fin.ext
    match a with
    | ⟨0, _⟩ => show win0_0.index t (0 : Fin 3) * 1 + 1 * (0 : Fin 1).val = win0_0.index t (0 : Fin 3); omega
    | ⟨1, _⟩ => show win0_0.index t (1 : Fin 3) * 512 + 1 * p.val = win0_0.index t (1 : Fin 3) * 512 + p.val; omega
    | ⟨2, _⟩ => show win0_0.index t (2 : Fin 3) * 1024 + 1 * d.val = d.val; omega

/-- What a point writes back to the first output is its block of `G` at lane offset 0. -/
theorem flushed3_eq (c : Dev nD) (t : Fin cfg0.N) :
    (dat0 (F := Ideal) V c).flushed 3 t = ((cfg0.win 3).blk t).view.read (Elt Ideal) (G V c 0 (by decide)) := by
  show (cfg0.win 3).cut (grid0.coords t) ((dat0 (F := Ideal) V c).after 3 t) = _
  rw [after0_3]
  unfold out0_3
  rw [View.canon_unit_zero zeros3]
  simp only [View.ld_unit_zero (S := S1x512x1024) zeros3, View.ld_unit_zero (S := S1024x384) zeros2, View.ld_unit_zero (S := S1x384) zeros2]
  funext j
  obtain ⟨u, p, k, rfl⟩ : ∃ (u : Fin 1) (p : Fin 512) (k : Fin 128), j = ix3 u p k := ⟨j 0, j 1, j 2, eq_ix3 j⟩
  obtain ⟨b, r, hE, hX⟩ := emb_out3 t u p k
  show k0_pay2 (F := Ideal) (iblk0 V c 0 t) (iblk0 V c 1 t) (iblk0 V c 2 t) (ix3 u p k) = G V c 0 (by decide) (((cfg0.win 3).blk t).view.emb (ix3 u p k))
  rw [pay2_apply, hE]
  have hX' : ∀ d : Fin 1024, iblk0 V c 0 t (ix3 (0 : Fin 1) p d) = V c main_arg0 (ix3 b r d) := fun d =>
    (iblk_x V c t _).trans (congrArg (V c main_arg0) (hX d))
  simp only [hX', iblk_w, iblk_b]
  rfl

/-- An index of the first output array is in a point's block iff each coordinate is in the block's range on its axis. -/
theorem mem_blk3 (t : Fin cfg0.N) (i : S4x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v3_0).slice (win0_3.rect t)).set ↔ _
  rw [View.set_slice_whole, Rect.mem_set_unit]
  exact Iff.rfl

/-- The 16 blocks tile the first output array: row `r` of batch entry `b` is in the block of the point (b, r / 512). -/
theorem cover3 (i : S4x2048x128.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 128 := (i 2).isLt
  obtain ⟨t, q0, q1⟩ := idx_onto ⟨(i 0).val, hi0⟩ ⟨(i 1).val / 512, by omega⟩
  have q0' : win0_0.index t (0 : Fin 3) = (i 0).val := q0
  have q1' : win0_0.index t (1 : Fin 3) = (i 1).val / 512 := q1
  obtain ⟨-, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The first output array after the call is `G` at lane offset 0. -/
theorem final3 (c : Dev nD) : (dat0 (F := Ideal) V c).arrAt 3 cfg0.N = G V c 0 (by decide) :=
  (dat0 (F := Ideal) V c).arrAt_eq_of_cover 3 (G V c 0 (by decide)) (fun t _ => flushed3_eq V c t) cover3

/-- Where row `p` of the point's blocks sits in the arrays: at one batch entry `b` and one row `r`, the same for the
    second output's block (lane `k` at lane `k`) and for the activations' block (feature `d` at feature `d`). -/
theorem emb_out4 (t : Fin cfg0.N) (u : Fin 1) (p : Fin 512) (k : Fin 128) : ∃ (b : Fin 4) (r : Fin 2048),
    ((cfg0.win 4).blk t).view.emb (ix3 u p k) = ix3 b r k
    ∧ ∀ d : Fin 1024, ((cfg0.win 0).blk t).view.emb (ix3 (0 : Fin 1) p d) = ix3 b r d := by
  obtain ⟨h0, h1, h2, -, -, -, -, -, -, -, e0, e1, e2, -⟩ := idx_facts t
  have hu : u.val = 0 := by omega
  refine ⟨⟨win0_0.index t (0 : Fin 3), by omega⟩, ⟨win0_0.index t (1 : Fin 3) * 512 + p.val, by omega⟩, ?_, fun d => ?_⟩
  · funext a; apply Fin.ext
    match a with
    | ⟨0, _⟩ => show win0_4.index t (0 : Fin 3) * 1 + 1 * u.val = win0_0.index t (0 : Fin 3); omega
    | ⟨1, _⟩ => show win0_4.index t (1 : Fin 3) * 512 + 1 * p.val = win0_0.index t (1 : Fin 3) * 512 + p.val; omega
    | ⟨2, _⟩ => show win0_4.index t (2 : Fin 3) * 128 + 1 * k.val = k.val; omega
  · funext a; apply Fin.ext
    match a with
    | ⟨0, _⟩ => show win0_0.index t (0 : Fin 3) * 1 + 1 * (0 : Fin 1).val = win0_0.index t (0 : Fin 3); omega
    | ⟨1, _⟩ => show win0_0.index t (1 : Fin 3) * 512 + 1 * p.val = win0_0.index t (1 : Fin 3) * 512 + p.val; omega
    | ⟨2, _⟩ => show win0_0.index t (2 : Fin 3) * 1024 + 1 * d.val = d.val; omega

/-- What a point writes back to the second output is its block of `G` at lane offset 128. -/
theorem flushed4_eq (c : Dev nD) (t : Fin cfg0.N) :
    (dat0 (F := Ideal) V c).flushed 4 t = ((cfg0.win 4).blk t).view.read (Elt Ideal) (G V c 128 (by decide)) := by
  show (cfg0.win 4).cut (grid0.coords t) ((dat0 (F := Ideal) V c).after 4 t) = _
  rw [after0_4]
  unfold out0_4
  rw [View.canon_unit_zero zeros3]
  simp only [View.ld_unit_zero (S := S1x512x1024) zeros3, View.ld_unit_zero (S := S1024x384) zeros2, View.ld_unit_zero (S := S1x384) zeros2]
  funext j
  obtain ⟨u, p, k, rfl⟩ : ∃ (u : Fin 1) (p : Fin 512) (k : Fin 128), j = ix3 u p k := ⟨j 0, j 1, j 2, eq_ix3 j⟩
  obtain ⟨b, r, hE, hX⟩ := emb_out4 t u p k
  show k0_pay3 (F := Ideal) (iblk0 V c 0 t) (iblk0 V c 1 t) (iblk0 V c 2 t) (ix3 u p k) = G V c 128 (by decide) (((cfg0.win 4).blk t).view.emb (ix3 u p k))
  rw [pay3_apply, hE]
  have hX' : ∀ d : Fin 1024, iblk0 V c 0 t (ix3 (0 : Fin 1) p d) = V c main_arg0 (ix3 b r d) := fun d =>
    (iblk_x V c t _).trans (congrArg (V c main_arg0) (hX d))
  simp only [hX', iblk_w, iblk_b]
  rfl

/-- An index of the second output array is in a point's block iff each coordinate is in the block's range on its axis. -/
theorem mem_blk4 (t : Fin cfg0.N) (i : S4x2048x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v3_1).slice (win0_4.rect t)).set ↔ _
  rw [View.set_slice_whole, Rect.mem_set_unit]
  exact Iff.rfl

/-- The 16 blocks tile the second output array: row `r` of batch entry `b` is in the block of the point (b, r / 512). -/
theorem cover4 (i : S4x2048x128.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 128 := (i 2).isLt
  obtain ⟨t, q0, q1⟩ := idx_onto ⟨(i 0).val, hi0⟩ ⟨(i 1).val / 512, by omega⟩
  have q0' : win0_0.index t (0 : Fin 3) = (i 0).val := q0
  have q1' : win0_0.index t (1 : Fin 3) = (i 1).val / 512 := q1
  obtain ⟨-, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- The second output array after the call is `G` at lane offset 128. -/
theorem final4 (c : Dev nD) : (dat0 (F := Ideal) V c).arrAt 4 cfg0.N = G V c 128 (by decide) :=
  (dat0 (F := Ideal) V c).arrAt_eq_of_cover 4 (G V c 128 (by decide)) (fun t _ => flushed4_eq V c t) cover4

/-- Where row `p` of the point's blocks sits in the arrays: at one batch entry `b` and one row `r`, the same for the
    third output's block (lane `k` at lane `k`) and for the activations' block (feature `d` at feature `d`). -/
theorem emb_out5 (t : Fin cfg0.N) (u : Fin 1) (p : Fin 512) (k : Fin 128) : ∃ (b : Fin 4) (r : Fin 2048),
    ((cfg0.win 5).blk t).view.emb (ix3 u p k) = ix3 b r k
    ∧ ∀ d : Fin 1024, ((cfg0.win 0).blk t).view.emb (ix3 (0 : Fin 1) p d) = ix3 b r d := by
  obtain ⟨h0, h1, h2, -, -, -, -, -, -, -, -, -, -, e0, e1, e2⟩ := idx_facts t
  have hu : u.val = 0 := by omega
  refine ⟨⟨win0_0.index t (0 : Fin 3), by omega⟩, ⟨win0_0.index t (1 : Fin 3) * 512 + p.val, by omega⟩, ?_, fun d => ?_⟩
  · funext a; apply Fin.ext
    match a with
    | ⟨0, _⟩ => show win0_5.index t (0 : Fin 3) * 1 + 1 * u.val = win0_0.index t (0 : Fin 3); omega
    | ⟨1, _⟩ => show win0_5.index t (1 : Fin 3) * 512 + 1 * p.val = win0_0.index t (1 : Fin 3) * 512 + p.val; omega
    | ⟨2, _⟩ => show win0_5.index t (2 : Fin 3) * 128 + 1 * k.val = k.val; omega
  · funext a; apply Fin.ext
    match a with
    | ⟨0, _⟩ => show win0_0.index t (0 : Fin 3) * 1 + 1 * (0 : Fin 1).val = win0_0.index t (0 : Fin 3); omega
    | ⟨1, _⟩ => show win0_0.index t (1 : Fin 3) * 512 + 1 * p.val = win0_0.index t (1 : Fin 3) * 512 + p.val; omega
    | ⟨2, _⟩ => show win0_0.index t (2 : Fin 3) * 1024 + 1 * d.val = d.val; omega

/-- What a point writes back to the third output is its block of `G` at lane offset 256. -/
theorem flushed5_eq (c : Dev nD) (t : Fin cfg0.N) :
    (dat0 (F := Ideal) V c).flushed 5 t = ((cfg0.win 5).blk t).view.read (Elt Ideal) (G V c 256 (by decide)) := by
  show (cfg0.win 5).cut (grid0.coords t) ((dat0 (F := Ideal) V c).after 5 t) = _
  rw [after0_5]
  unfold out0_5
  rw [View.canon_unit_zero zeros3]
  simp only [View.ld_unit_zero (S := S1x512x1024) zeros3, View.ld_unit_zero (S := S1024x384) zeros2, View.ld_unit_zero (S := S1x384) zeros2]
  funext j
  obtain ⟨u, p, k, rfl⟩ : ∃ (u : Fin 1) (p : Fin 512) (k : Fin 128), j = ix3 u p k := ⟨j 0, j 1, j 2, eq_ix3 j⟩
  obtain ⟨b, r, hE, hX⟩ := emb_out5 t u p k
  show k0_pay4 (F := Ideal) (iblk0 V c 0 t) (iblk0 V c 1 t) (iblk0 V c 2 t) (ix3 u p k) = G V c 256 (by decide) (((cfg0.win 5).blk t).view.emb (ix3 u p k))
  rw [pay4_apply, hE]
  have hX' : ∀ d : Fin 1024, iblk0 V c 0 t (ix3 (0 : Fin 1) p d) = V c main_arg0 (ix3 b r d) := fun d =>
    (iblk_x V c t _).trans (congrArg (V c main_arg0) (hX d))
  simp only [hX', iblk_w, iblk_b]
  rfl

/-- An index of the third output array is in a point's block iff each coordinate is in the block's range on its axis. -/
theorem mem_blk5 (t : Fin cfg0.N) (i : S4x2048x128.Idx) :
    i ∈ ((cfg0.win 5).blk t).view.set ↔ ∀ a : Fin 3, win0_5.index t a * S1x512x128.size a ≤ (i a).val ∧ (i a).val < win0_5.index t a * S1x512x128.size a + S1x512x128.size a := by
  show i ∈ ((View.whole main_v3_2).slice (win0_5.rect t)).set ↔ _
  rw [View.set_slice_whole, Rect.mem_set_unit]
  exact Iff.rfl

/-- The 16 blocks tile the third output array: row `r` of batch entry `b` is in the block of the point (b, r / 512). -/
theorem cover5 (i : S4x2048x128.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 128 := (i 2).isLt
  obtain ⟨t, q0, q1⟩ := idx_onto ⟨(i 0).val, hi0⟩ ⟨(i 1).val / 512, by omega⟩
  have q0' : win0_0.index t (0 : Fin 3) = (i 0).val := q0
  have q1' : win0_0.index t (1 : Fin 3) = (i 1).val / 512 := q1
  obtain ⟨-, -, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 128 ≤ (i 2).val ∧ (i 2).val < win0_5.index t (2 : Fin 3) * 128 + 128; omega

/-- The third output array after the call is `G` at lane offset 256. -/
theorem final5 (c : Dev nD) : (dat0 (F := Ideal) V c).arrAt 5 cfg0.N = G V c 256 (by decide) :=
  (dat0 (F := Ideal) V c).arrAt_eq_of_cover 5 (G V c 256 (by decide)) (fun t _ => flushed5_eq V c t) cover5

/-! ## The three output arrays at an entry -/

/-- The first output array after the call. -/
theorem proj_q (c : Dev nD) (bi : Fin 4) (l : Fin 2048) (k : Fin 128) :
    (dat0 (F := Ideal) V c).arrAt 3 cfg0.N (ix3 bi l k) = Spec.dense (xs V c) (wcat V c 0 (by decide)) (bcat V c 0 (by decide)) bi l k := by
  rw [final3]
  rfl

/-- The second output array after the call. -/
theorem proj_k (c : Dev nD) (bi : Fin 4) (l : Fin 2048) (k : Fin 128) :
    (dat0 (F := Ideal) V c).arrAt 4 cfg0.N (ix3 bi l k) = Spec.dense (xs V c) (wcat V c 128 (by decide)) (bcat V c 128 (by decide)) bi l k := by
  rw [final4]
  rfl

/-- The third output array after the call. -/
theorem proj_v (c : Dev nD) (bi : Fin 4) (l : Fin 2048) (k : Fin 128) :
    (dat0 (F := Ideal) V c).arrAt 5 cfg0.N (ix3 bi l k) = Spec.dense (xs V c) (wcat V c 256 (by decide)) (bcat V c 256 (by decide)) bi l k := by
  rw [final5]
  rfl

end Cert.KernelIdeal.ProjVal

end
-- ==== Proof.Ideal.AttnValue.lean ====
/- The attention call's output array after the call, read at an entry: cos(Q · Kᵀ) · V per batch entry, of the three
   arrays the call finds. -/
import proofs.«118254_j6880537608586_1_alg».proof.Proof.Ideal.AttnRegion
import proofs.«118254_j6880537608586_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnVal

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (V : (c : Dev nD) → (b : Ref sig .tc) → Buf (Elt Ideal) ((c : Thread nD τ).loc b))

/-- The queries, keys and values as the call finds them, by coordinates. -/
def qs (c : Dev nD) : Fin 4 → Fin 2048 → Fin 128 → EReal := fun bi l k => V c main_v3_0 (ix3 bi l k)
def ks (c : Dev nD) : Fin 4 → Fin 2048 → Fin 128 → EReal := fun bi l k => V c main_v3_1 (ix3 bi l k)
def vs (c : Dev nD) : Fin 4 → Fin 2048 → Fin 128 → EReal := fun bi l k => V c main_v3_2 (ix3 bi l k)

/-! ## The two block products at an entry -/

/-- The scores' product contracts axis 1 of both operands: at output entry (p, pp) and contraction position f the left
    operand is read at (p, f) and the right at (pp, f). The four coordinates, one lemma each. -/
theorem lhs_qk_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_qk_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_qk_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_qk_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The scores at an entry: the query row against the key row, over the 128 features. -/
theorem qk_apply (a : FVec Ideal S512x128 .bf16) (b : FVec Ideal S2048x128 .bf16) (p : Fin 512) (pp : Fin 2048) :
    matmul dot_S512x128_S2048x128_S512x2048_1_1_0_0_n_n none a b (constant S512x2048 .f32 0x00000000#32) (ix2 p pp)
      = ∑ f : Fin 128, a (ix2 p f) * b (ix2 pp f) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p pp) ((contrEquiv1 dot_S512x128_S2048x128_S512x2048_1_1_0_0_n_n 128 rfl rfl).symm k) = ix2 p k := funext fun a => Fin.ext (by
    match a with
    | ⟨0, _⟩ => exact lhs_qk_0 _ _
    | ⟨1, _⟩ => exact (lhs_qk_1 _ _).trans hk)
  have er : dot_S512x128_S2048x128_S512x2048_1_1_0_0_n_n.rhsIdx (ix2 p pp) ((contrEquiv1 dot_S512x128_S2048x128_S512x2048_1_1_0_0_n_n 128 rfl rfl).symm k) = ix2 pp k := funext fun a => Fin.ext (by
    match a with
    | ⟨0, _⟩ => exact rhs_qk_0 _ _
    | ⟨1, _⟩ => exact (rhs_qk_1 _ _).trans hk)
  rw [el, er]

/-- The second product contracts axis 1 of the left operand with axis 0 of the right: at output entry (p, j) and
    contraction position pp the left operand is read at (p, pp) and the right at (pp, j). -/
theorem lhs_cv_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_cv_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhs_cv_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhs_cv_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The weighted values at an entry: the weights' row against the values' column, over the 2048 key positions. -/
theorem cv_apply (a : FVec Ideal S512x2048 .bf16) (b : FVec Ideal S2048x128 .bf16) (p : Fin 512) (j : Fin 128) :
    matmul dot_S512x2048_S2048x128_S512x128_1_0_0_1_n_n none a b (constant S512x128 .f32 0x00000000#32) (ix2 p j)
      = ∑ pp : Fin 2048, a (ix2 p pp) * b (ix2 pp j) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p j) ((contrEquiv1 dot_S512x2048_S2048x128_S512x128_1_0_0_1_n_n 2048 rfl rfl).symm k) = ix2 p k := funext fun a => Fin.ext (by
    match a with
    | ⟨0, _⟩ => exact lhs_cv_0 _ _
    | ⟨1, _⟩ => exact (lhs_cv_1 _ _).trans hk)
  have er : dot_S512x2048_S2048x128_S512x128_1_0_0_1_n_n.rhsIdx (ix2 p j) ((contrEquiv1 dot_S512x2048_S2048x128_S512x128_1_0_0_1_n_n 2048 rfl rfl).symm k) = ix2 k j := funext fun a => Fin.ext (by
    match a with
    | ⟨0, _⟩ => exact (rhs_cv_0 _ _).trans hk
    | ⟨1, _⟩ => exact rhs_cv_1 _ _)
  rw [el, er]

/-! ## The body's arithmetic at an entry -/

/-- The vector cosine at an index is the extended reals' cosine of the element. -/
theorem cos_apply {s : Shape} {φ : FTy} (x : FVec Ideal s φ) (i : s.Idx) : cos x i = Ideal.cos (x i) := rfl

/-- What the body stores, at entry (0, p, j) of its block: over the key positions, the cosine of the score times the
    value entry. The unit axis of each staged block is cast away and put back; the float formats are the identity on
    the extended reals. -/
theorem pay_apply (v0 : Vec Ideal S1x512x128 .bf16) (v2 v4 : Vec Ideal S1x2048x128 .bf16) (p : Fin 512) (j : Fin 128) :
    k1_pay1 (F := Ideal) v0 v2 v4 (ix3 (0 : Fin 1) p j)
      = ∑ pp : Fin 2048, Ideal.cos (∑ f : Fin 128, v0 (ix3 (0 : Fin 1) p f) * v2 (ix3 (0 : Fin 1) pp f)) * v4 (ix3 (0 : Fin 1) pp j) := by
  unfold k1_pay1
  rw [shapeCast_ab_1ab_apply, cv_apply]
  refine Finset.sum_congr rfl fun pp _ => ?_
  rw [truncf_apply, cos_apply, qk_apply, shapeCast_1ab_ab_apply]
  congr 2
  refine Finset.sum_congr rfl fun f _ => ?_
  rw [shapeCast_1ab_ab_apply, shapeCast_1ab_ab_apply]

/-- The body's arithmetic at any entry of its block: the leading coordinate of a [1, 512, 128] block is 0. -/
theorem pay_at (x0 : Vec Ideal S1x512x128 .bf16) (x1 x2 : Vec Ideal S1x2048x128 .bf16) (y : S1x512x128.Idx) :
    k1_pay1 (F := Ideal) x0 x1 x2 y
      = ∑ pp : Fin 2048, Ideal.cos (∑ f : Fin 128, x0 (ix3 (0 : Fin 1) (y 1) f) * x1 (ix3 (0 : Fin 1) pp f)) * x2 (ix3 (0 : Fin 1) pp (y 2)) := by
  obtain ⟨u, p, j, rfl⟩ : ∃ (u : Fin 1) (p : Fin 512) (j : Fin 128), y = ix3 u p j := ⟨y 0, y 1, y 2, eq_ix3 y⟩
  obtain rfl : u = 0 := Subsingleton.elim _ _
  exact pay_apply x0 x1 x2 p j

/-! ## From the blocks to the array -/

theorem hz3 : (![0, 0, 0] : Fin 3 → Nat) = fun _ => 0 := funext fun a => by fin_cases a <;> rfl

/-- The whole output array: the attention of the three arrays the call finds, entry by entry. -/
def attnArr (c : Dev nD) : S4x2048x128.Idx → EReal := fun i => Spec.attn (qs V c) (ks V c) (vs V c) (i 0) (i 1) (i 2)

/-- The four windows' block indices, decided over the grid: at a point the queries' block is the output's, the keys'
    and values' slabs are those of the output block's batch entry, and the output's block indices range over 4 × 4. -/
theorem idx_facts : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 ∧ win1_3.index t (2 : Fin 3) = 0 :=
  (by decide +kernel : ∀ t : Fin grid1.N, _)

/-- Every (batch entry, quarter of the positions) is some point's output block. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-- What point `t` writes back is block `t` of the whole output array. -/
theorem flushed_eq (c : Dev nD) (t : Fin cfg1.N) :
    (dat1 (F := Ideal) V c).flushed 3 t = ((cfg1.win 3).blk t).view.read (Elt Ideal) (attnArr V c) := by
  show (cfg1.win 3).cut (grid1.coords t) ((dat1 (F := Ideal) V c).after 3 t) = _
  rw [after1_3]
  unfold out1_3
  rw [View.canon_unit_zero hz3]
  simp only [View.ld_unit_zero (S := S1x512x128) hz3, View.ld_unit_zero (S := S1x2048x128) hz3]
  obtain ⟨a00, a01, a02, a10, a11, a12, a20, a21, a22, a30, a31, a32⟩ := idx_facts t
  funext y
  have hy0 : (y 0).val < 1 := (y 0).isLt
  have hy1 : (y 1).val < 512 := (y 1).isLt
  have hy2 : (y 2).val < 128 := (y 2).isLt
  show k1_pay1 (F := Ideal) (iblk1 V c 0 t) (iblk1 V c 1 t) (iblk1 V c 2 t) ((cfg1.win 3).xinj (grid1.coords t) y) = attnArr V c (((cfg1.win 3).blk t).view.emb y)
  refine (pay_at _ _ _ _).trans ?_
  unfold attnArr Spec.attn
  refine Finset.sum_congr rfl fun pp _ => ?_
  refine congrArg₂ (· * ·) (congrArg Ideal.cos (Finset.sum_congr rfl fun f _ => congrArg₂ (· * ·) ?_ ?_)) ?_
  · show V c main_v3_0 (((cfg1.win 0).blk t).view.emb (ix3 (0 : Fin 1) (((cfg1.win 3).xinj (grid1.coords t) y) 1) f)) = V c main_v3_0 (ix3 ((((cfg1.win 3).blk t).view.emb y) 0) ((((cfg1.win 3).blk t).view.emb y) 1) f)
    refine congrArg _ (funext fun a => Fin.ext ?_)
    match a with
    | ⟨0, _⟩ => show win1_0.index t (0 : Fin 3) * 1 + 1 * 0 = win1_3.index t (0 : Fin 3) * 1 + 1 * (y 0).val; omega
    | ⟨1, _⟩ => show win1_0.index t (1 : Fin 3) * 512 + 1 * (y 1).val = win1_3.index t (1 : Fin 3) * 512 + 1 * (y 1).val; omega
    | ⟨2, _⟩ => show win1_0.index t (2 : Fin 3) * 128 + 1 * f.val = f.val; omega
  · show V c main_v3_1 (((cfg1.win 1).blk t).view.emb (ix3 (0 : Fin 1) pp f)) = V c main_v3_1 (ix3 ((((cfg1.win 3).blk t).view.emb y) 0) pp f)
    refine congrArg _ (funext fun a => Fin.ext ?_)
    match a with
    | ⟨0, _⟩ => show win1_1.index t (0 : Fin 3) * 1 + 1 * 0 = win1_3.index t (0 : Fin 3) * 1 + 1 * (y 0).val; omega
    | ⟨1, _⟩ => show win1_1.index t (1 : Fin 3) * 2048 + 1 * pp.val = pp.val; omega
    | ⟨2, _⟩ => show win1_1.index t (2 : Fin 3) * 128 + 1 * f.val = f.val; omega
  · show V c main_v3_2 (((cfg1.win 2).blk t).view.emb (ix3 (0 : Fin 1) pp (((cfg1.win 3).xinj (grid1.coords t) y) 2))) = V c main_v3_2 (ix3 ((((cfg1.win 3).blk t).view.emb y) 0) pp ((((cfg1.win 3).blk t).view.emb y) 2))
    refine congrArg _ (funext fun a => Fin.ext ?_)
    match a with
    | ⟨0, _⟩ => show win1_2.index t (0 : Fin 3) * 1 + 1 * 0 = win1_3.index t (0 : Fin 3) * 1 + 1 * (y 0).val; omega
    | ⟨1, _⟩ => show win1_2.index t (1 : Fin 3) * 2048 + 1 * pp.val = pp.val; omega
    | ⟨2, _⟩ => show win1_2.index t (2 : Fin 3) * 128 + 1 * (y 2).val = win1_3.index t (2 : Fin 3) * 128 + 1 * (y 2).val; omega

/-- An index of the array is in point `t`'s block iff each coordinate is in the block's range on its axis. -/
theorem mem_blk (t : Fin cfg1.N) (i : S4x2048x128.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v4).slice (win1_3.rect t)).set ↔ _
  rw [View.set_slice_whole, Rect.mem_set_unit]
  exact Iff.rfl

/-- The sixteen blocks tile the array: entry (b, l, j) lies in the block of the point whose output block index is
    (b, l / 512, 0). -/
theorem cover (i : S4x2048x128.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The output array after the call is the whole-array function: every point writes back its block of it, and the
    blocks tile the array. -/
theorem arr_eq (c : Dev nD) : (dat1 (F := Ideal) V c).arrAt 3 cfg1.N = attnArr V c :=
  (dat1 (F := Ideal) V c).arrAt_eq_of_cover 3 (attnArr V c) (fun t _ => flushed_eq V c t) (fun i => cover i)

/-- The output array after the call. -/
theorem attn_out (c : Dev nD) (bi : Fin 4) (l : Fin 2048) (j : Fin 128) :
    (dat1 (F := Ideal) V c).arrAt 3 cfg1.N (ix3 bi l j) = Spec.attn (qs V c) (ks V c) (vs V c) bi l j := by
  exact congrFun (arr_eq V c) (ix3 bi l j)

end Cert.KernelIdeal.AttnVal

end
-- ==== Proof.Ideal.HostValue.lean ====
/- What the projection call finds in the joined weight matrix and the joined bias row: the three weight matrices side by
   side along the lanes, and the three bias vectors end to end, as one row. -/
import proofs.«118254_j6880537608586_1_alg».proof.Proof.Ideal.MainRun
import proofs.«118254_j6880537608586_1_alg».proof.Proof.Spec
import Idealize.ShloMosaic.Lib.Pipeline.Value
import Idealize.ShloMosaic.Lib.ValueIdx
import Idealize.ShloMosaic.Lib.StableHlo.Run

noncomputable section

namespace Cert.KernelIdeal.HostVal

open Idealize.ShloMosaic Idealize.ShloMosaic.TcCoe Idealize.SL.Sem Idealize.ShloMosaic.StableHlo
open Idealize.ShloMosaic.ValueIdx
open Cert.KernelIdeal Cert.KernelIdeal.Gen Cert.KernelIdeal.Fr

variable {F : FTy → Type} [FloatOps F]
variable (m : (ℓ : Loc nD τ sig) → Buf (Elt F) ℓ) (ρ : Dev nD → PrngReg)

/-- The activations reach the projection call as launched. -/
theorem entry_x (c : Dev nD) : V1 m ρ c main_arg0 = m ((c : Thread nD τ).loc main_arg0) :=
  W1_of_not_written m ρ c main_arg0 (by decide)

/-- The joined weight matrix is the concatenation of the three along axis 1. -/
theorem entry_w (c : Dev nD) :
    (V1 m ρ c main_v0 : S1024x384.Idx → Elt F .f32)
      = concatenate S1024x384 1 [⟨S1024x128, m ((c : Thread nD τ).loc main_arg1)⟩, ⟨S1024x128, m ((c : Thread nD τ).loc main_arg3)⟩, ⟨S1024x128, m ((c : Thread nD τ).loc main_arg5)⟩] concatenates_S1024x128_S1024x128_S1024x128_S1024x384_d1 := by
  show StableHlo.after hostOps0 (W0 m ρ c) (Proc.devRef .tc main_v0) = _
  dsimp only [hostOps0]
  after_results
  rfl

/-- The joined bias row is the concatenation of the three vectors, recast as one row. -/
theorem entry_b (c : Dev nD) :
    (V1 m ρ c main_v2 : S1x384.Idx → Elt F .f32)
      = shapeCast S1x384 (concatenate S384 0 [⟨S128, m ((c : Thread nD τ).loc main_arg2)⟩, ⟨S128, m ((c : Thread nD τ).loc main_arg4)⟩, ⟨S128, m ((c : Thread nD τ).loc main_arg6)⟩] concatenates_S128_S128_S128_S384_d0) shapeCasts_S384_S1x384 := by
  show StableHlo.after hostOps0 (W0 m ρ c) (Proc.devRef .tc main_v2) = _
  dsimp only [hostOps0]
  after_results
  rfl

/-- Lane `128 K + k` of row `d` of three [1024, 128] matrices laid side by side is entry (d, k) of the K-th. -/
theorem cat_w_apply (w0 w1 w2 : S1024x128.Idx → Elt F .f32) (K : Fin 3) (d : Fin 1024) (k : Fin 128) (h : 128 * K.val + 128 ≤ 384) :
    concatenate S1024x384 1 [⟨S1024x128, w0⟩, ⟨S1024x128, w1⟩, ⟨S1024x128, w2⟩] concatenates_S1024x128_S1024x128_S1024x128_S1024x384_d1 (ix2 d (Spec.lane (128 * K.val) h k))
      = (![w0, w1, w2] K) (ix2 d k) := by
  match K with
  | ⟨0, _⟩ =>
    exact concatenate_apply_piece (t := S1024x384) (1 : Fin 2) [⟨S1024x128, w0⟩, ⟨S1024x128, w1⟩, ⟨S1024x128, w2⟩] concatenates_S1024x128_S1024x128_S1024x128_S1024x384_d1
      (ix2 d (Spec.lane (128 * 0) h k)) 0 (by show 0 < 3; decide) S1024x128 w0 rfl rfl 0 rfl (ix2 d k)
      (fun b hb => by match b with | ⟨0, _⟩ => rfl | ⟨1, _⟩ => exact absurd rfl hb) rfl
  | ⟨1, _⟩ =>
    exact concatenate_apply_piece (t := S1024x384) (1 : Fin 2) [⟨S1024x128, w0⟩, ⟨S1024x128, w1⟩, ⟨S1024x128, w2⟩] concatenates_S1024x128_S1024x128_S1024x128_S1024x384_d1
      (ix2 d (Spec.lane (128 * 1) h k)) 1 (by show 1 < 3; decide) S1024x128 w1 rfl rfl 128 rfl (ix2 d k)
      (fun b hb => by match b with | ⟨0, _⟩ => rfl | ⟨1, _⟩ => exact absurd rfl hb) rfl
  | ⟨2, _⟩ =>
    exact concatenate_apply_piece (t := S1024x384) (1 : Fin 2) [⟨S1024x128, w0⟩, ⟨S1024x128, w1⟩, ⟨S1024x128, w2⟩] concatenates_S1024x128_S1024x128_S1024x128_S1024x384_d1
      (ix2 d (Spec.lane (128 * 2) h k)) 2 (by show 2 < 3; decide) S1024x128 w2 rfl rfl 256 rfl (ix2 d k)
      (fun b hb => by match b with | ⟨0, _⟩ => rfl | ⟨1, _⟩ => exact absurd rfl hb) rfl

/-- Lane `128 K + k` of three 128-vectors laid end to end and recast as one row is entry k of the K-th. -/
theorem cat_b_apply (b0 b1 b2 : S128.Idx → Elt F .f32) (K : Fin 3) (k : Fin 128) (h : 128 * K.val + 128 ≤ 384) :
    shapeCast S1x384 (concatenate S384 0 [⟨S128, b0⟩, ⟨S128, b1⟩, ⟨S128, b2⟩] concatenates_S128_S128_S128_S384_d0) shapeCasts_S384_S1x384 (ix2 (0 : Fin 1) (Spec.lane (128 * K.val) h k))
      = (![b0, b1, b2] K) (ix1 k) := by
  rw [shapeCast_apply _ shapeCasts_S384_S1x384 (ix2 (0 : Fin 1) (Spec.lane (128 * K.val) h k)) (ix1 (Spec.lane (128 * K.val) h k))
    (by rw [Shape.rowMajor_val_one, Shape.rowMajor_val_two]; show (128 * K.val + k.val) = 0 * 384 + (128 * K.val + k.val); omega)]
  match K with
  | ⟨0, _⟩ =>
    exact concatenate_apply_piece (t := S384) (0 : Fin 1) [⟨S128, b0⟩, ⟨S128, b1⟩, ⟨S128, b2⟩] concatenates_S128_S128_S128_S384_d0
      (ix1 (Spec.lane (128 * 0) h k)) 0 (by show 0 < 3; decide) S128 b0 rfl rfl 0 rfl (ix1 k)
      (fun b hb => by match b with | ⟨0, _⟩ => exact absurd rfl hb) rfl
  | ⟨1, _⟩ =>
    exact concatenate_apply_piece (t := S384) (0 : Fin 1) [⟨S128, b0⟩, ⟨S128, b1⟩, ⟨S128, b2⟩] concatenates_S128_S128_S128_S384_d0
      (ix1 (Spec.lane (128 * 1) h k)) 1 (by show 1 < 3; decide) S128 b1 rfl rfl 128 rfl (ix1 k)
      (fun b hb => by match b with | ⟨0, _⟩ => exact absurd rfl hb) rfl
  | ⟨2, _⟩ =>
    exact concatenate_apply_piece (t := S384) (0 : Fin 1) [⟨S128, b0⟩, ⟨S128, b1⟩, ⟨S128, b2⟩] concatenates_S128_S128_S128_S384_d0
      (ix1 (Spec.lane (128 * 2) h k)) 2 (by show 2 < 3; decide) S128 b2 rfl rfl 256 rfl (ix1 k)
      (fun b hb => by match b with | ⟨0, _⟩ => exact absurd rfl hb) rfl

end Cert.KernelIdeal.HostVal

end
-- ==== Proof.Arr.lean ====
/- An array's entries by plain coordinates, and the two programs' common result as one function of the seven argument
   arrays. -/
import proofs.«118254_j6880537608586_1_alg».proof.Proof.Spec

noncomputable section

namespace Cert.Spec

open Idealize.ShloMosaic Idealize.ShloMosaic.ValueIdx

/-- An array's entries by coordinates. -/
def arr3 {n0 n1 n2 : Nat} (x : (⟨3, ![n0, n1, n2]⟩ : Shape).Idx → EReal) : Fin n0 → Fin n1 → Fin n2 → EReal := fun a b c => x (ix3 a b c)
def arr2 {n0 n1 : Nat} (x : (⟨2, ![n0, n1]⟩ : Shape).Idx → EReal) : Fin n0 → Fin n1 → EReal := fun a b => x (ix2 a b)
def arr1 {n0 : Nat} (x : (⟨1, ![n0]⟩ : Shape).Idx → EReal) : Fin n0 → EReal := fun a => x (ix1 a)

/-- The result array: attention without softmax over the three dense projections of the activations. -/
def result (x : (⟨3, ![4, 2048, 1024]⟩ : Shape).Idx → EReal)
    (wq : (⟨2, ![1024, 128]⟩ : Shape).Idx → EReal) (bq : (⟨1, ![128]⟩ : Shape).Idx → EReal)
    (wk : (⟨2, ![1024, 128]⟩ : Shape).Idx → EReal) (bk : (⟨1, ![128]⟩ : Shape).Idx → EReal)
    (wv : (⟨2, ![1024, 128]⟩ : Shape).Idx → EReal) (bv : (⟨1, ![128]⟩ : Shape).Idx → EReal) :
    (⟨3, ![4, 2048, 128]⟩ : Shape).Idx → EReal :=
  fun i => attn (dense (arr3 x) (arr2 wq) (arr1 bq)) (dense (arr3 x) (arr2 wk) (arr1 bk)) (dense (arr3 x) (arr2 wv) (arr1 bv)) (i 0) (i 1) (i 2)

end Cert.Spec

end
-- ==== Proof.Ideal.KernelValue.lean ====
/- The idealized kernel's result array, as one function of the seven argument arrays: the attention call's output over
   what the projection call left, the projection call's outputs over the joined weights and bias row, and those over the
   arguments. -/
import proofs.«118254_j6880537608586_1_alg».proof.Proof.Ideal.MainRun
import proofs.«118254_j6880537608586_1_alg».proof.Proof.Ideal.ProjValue
import proofs.«118254_j6880537608586_1_alg».proof.Proof.Ideal.AttnValue
import proofs.«118254_j6880537608586_1_alg».proof.Proof.Ideal.HostValue
import proofs.«118254_j6880537608586_1_alg».proof.Proof.Arr

noncomputable section

namespace Cert.KernelIdeal.KVal

open Idealize.ShloMosaic Idealize.ShloMosaic.TcCoe Idealize.SL.Sem
open Idealize.ShloMosaic.ValueIdx
open Cert.KernelIdeal Cert.KernelIdeal.Gen Cert.KernelIdeal.Fr
open Cert.Spec (arr3 arr2 arr1)

variable (m : (ℓ : Loc nD τ sig) → Buf (Elt Ideal) ℓ) (ρ : Dev nD → PrngReg)

/-- The activations the projection call finds are the argument's. -/
theorem xs_eq (c : Dev nD) : ProjVal.xs (V1 m ρ) c = arr3 (m ((c : Thread nD τ).loc main_arg0)) := by
  funext a b d
  show V1 m ρ c main_arg0 (ix3 a b d) = _
  rw [HostVal.entry_x]
  rfl

/-- Lanes 0 to 127 of the joined weight matrix are the first weight matrix. -/
theorem wcat_eq0 (c : Dev nD) (h : 0 + 128 ≤ 384) :
    ProjVal.wcat (V1 m ρ) c 0 h = arr2 (m ((c : Thread nD τ).loc main_arg1)) := by
  funext d k
  show V1 m ρ c main_v0 (ix2 d (Spec.lane 0 h k)) = _
  rw [HostVal.entry_w]
  exact HostVal.cat_w_apply (m ((c : Thread nD τ).loc main_arg1)) (m ((c : Thread nD τ).loc main_arg3)) (m ((c : Thread nD τ).loc main_arg5)) 0 d k h

/-- Lanes 128 to 255 of the joined weight matrix are the second weight matrix. -/
theorem wcat_eq1 (c : Dev nD) (h : 128 + 128 ≤ 384) :
    ProjVal.wcat (V1 m ρ) c 128 h = arr2 (m ((c : Thread nD τ).loc main_arg3)) := by
  funext d k
  show V1 m ρ c main_v0 (ix2 d (Spec.lane 128 h k)) = _
  rw [HostVal.entry_w]
  exact HostVal.cat_w_apply (m ((c : Thread nD τ).loc main_arg1)) (m ((c : Thread nD τ).loc main_arg3)) (m ((c : Thread nD τ).loc main_arg5)) 1 d k h

/-- Lanes 256 to 383 of the joined weight matrix are the third weight matrix. -/
theorem wcat_eq2 (c : Dev nD) (h : 256 + 128 ≤ 384) :
    ProjVal.wcat (V1 m ρ) c 256 h = arr2 (m ((c : Thread nD τ).loc main_arg5)) := by
  funext d k
  show V1 m ρ c main_v0 (ix2 d (Spec.lane 256 h k)) = _
  rw [HostVal.entry_w]
  exact HostVal.cat_w_apply (m ((c : Thread nD τ).loc main_arg1)) (m ((c : Thread nD τ).loc main_arg3)) (m ((c : Thread nD τ).loc main_arg5)) 2 d k h

/-- Lanes 0 to 127 of the joined bias row are the first bias vector. -/
theorem bcat_eq0 (c : Dev nD) (h : 0 + 128 ≤ 384) :
    ProjVal.bcat (V1 m ρ) c 0 h = arr1 (m ((c : Thread nD τ).loc main_arg2)) := by
  funext k
  show V1 m ρ c main_v2 (ix2 (0 : Fin 1) (Spec.lane 0 h k)) = _
  rw [HostVal.entry_b]
  exact HostVal.cat_b_apply (m ((c : Thread nD τ).loc main_arg2)) (m ((c : Thread nD τ).loc main_arg4)) (m ((c : Thread nD τ).loc main_arg6)) 0 k h

/-- Lanes 128 to 255 of the joined bias row are the second bias vector. -/
theorem bcat_eq1 (c : Dev nD) (h : 128 + 128 ≤ 384) :
    ProjVal.bcat (V1 m ρ) c 128 h = arr1 (m ((c : Thread nD τ).loc main_arg4)) := by
  funext k
  show V1 m ρ c main_v2 (ix2 (0 : Fin 1) (Spec.lane 128 h k)) = _
  rw [HostVal.entry_b]
  exact HostVal.cat_b_apply (m ((c : Thread nD τ).loc main_arg2)) (m ((c : Thread nD τ).loc main_arg4)) (m ((c : Thread nD τ).loc main_arg6)) 1 k h

/-- Lanes 256 to 383 of the joined bias row are the third bias vector. -/
theorem bcat_eq2 (c : Dev nD) (h : 256 + 128 ≤ 384) :
    ProjVal.bcat (V1 m ρ) c 256 h = arr1 (m ((c : Thread nD τ).loc main_arg6)) := by
  funext k
  show V1 m ρ c main_v2 (ix2 (0 : Fin 1) (Spec.lane 256 h k)) = _
  rw [HostVal.entry_b]
  exact HostVal.cat_b_apply (m ((c : Thread nD τ).loc main_arg2)) (m ((c : Thread nD τ).loc main_arg4)) (m ((c : Thread nD τ).loc main_arg6)) 2 k h

/-- What the attention call finds as queries: the dense layer with the first weight matrix and bias. -/
theorem qs_eq (c : Dev nD) : AttnVal.qs (V2 m ρ) c
    = Spec.dense (arr3 (m ((c : Thread nD τ).loc main_arg0))) (arr2 (m ((c : Thread nD τ).loc main_arg1))) (arr1 (m ((c : Thread nD τ).loc main_arg2))) := by
  funext a b k
  show V2 m ρ c main_v3_0 (ix3 a b k) = _
  rw [show V2 m ρ c main_v3_0 = (dat0 (V1 m ρ) c).arrAt 3 cfg0.N from (hF0 m ρ c 3).symm, ProjVal.proj_q (V1 m ρ) c a b k,
    xs_eq, wcat_eq0, bcat_eq0]

/-- As keys: with the second. -/
theorem ks_eq (c : Dev nD) : AttnVal.ks (V2 m ρ) c
    = Spec.dense (arr3 (m ((c : Thread nD τ).loc main_arg0))) (arr2 (m ((c : Thread nD τ).loc main_arg3))) (arr1 (m ((c : Thread nD τ).loc main_arg4))) := by
  funext a b k
  show V2 m ρ c main_v3_1 (ix3 a b k) = _
  rw [show V2 m ρ c main_v3_1 = (dat0 (V1 m ρ) c).arrAt 4 cfg0.N from (hF0 m ρ c 4).symm, ProjVal.proj_k (V1 m ρ) c a b k,
    xs_eq, wcat_eq1, bcat_eq1]

/-- As values: with the third. -/
theorem vs_eq (c : Dev nD) : AttnVal.vs (V2 m ρ) c
    = Spec.dense (arr3 (m ((c : Thread nD τ).loc main_arg0))) (arr2 (m ((c : Thread nD τ).loc main_arg5))) (arr1 (m ((c : Thread nD τ).loc main_arg6))) := by
  funext a b k
  show V2 m ρ c main_v3_2 (ix3 a b k) = _
  rw [show V2 m ρ c main_v3_2 = (dat0 (V1 m ρ) c).arrAt 5 cfg0.N from (hF0 m ρ c 5).symm, ProjVal.proj_v (V1 m ρ) c a b k,
    xs_eq, wcat_eq2, bcat_eq2]

/-- The result array after the run is the specification's, of the argument arrays. -/
theorem kernel_final (c : Dev nD) :
    (dat1 (F := Ideal) (V2 m ρ) c).arrAt 3 cfg1.N
      = Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  funext i
  obtain ⟨a, b, k, rfl⟩ : ∃ (a : Fin 4) (b : Fin 2048) (k : Fin 128), i = ix3 a b k :=
    ⟨i 0, i 1, i 2, eq_ix3 (n0 := 4) (n1 := 2048) (n2 := 128) i⟩
  refine (AttnVal.attn_out (V2 m ρ) c a b k).trans ?_
  rw [qs_eq, ks_eq, vs_eq]
  rfl

end Cert.KernelIdeal.KVal

end
-- ==== Proof.RefValue.lean ====
/- The reference's result, read entry by entry, is the specification: three dense layers of the activations, the
   scores of queries against keys per batch entry, their cosines, and the cosines against the values. -/
import proofs.«118254_j6880537608586_1_alg».proof.Proof.Gen.ReferenceIdeal.Run
import proofs.«118254_j6880537608586_1_alg».proof.Proof.Gen.ReferenceIdeal.Read
import proofs.«118254_j6880537608586_1_alg».proof.Proof.Arr
import Idealize.ShloMosaic.Lib.ValueIdx

noncomputable section

namespace Cert.ReferenceIdeal.RefVal

open Idealize.ShloMosaic Idealize.ShloMosaic.TcCoe Idealize.SL.Sem
open Idealize.ShloMosaic.ValueIdx
open Cert.ReferenceIdeal Cert.ReferenceIdeal.Gen Cert.ReferenceIdeal.Read

open Cert.Spec (arr3 arr2 arr1)

/-- The query projection of the reference at an entry is the dense layer. -/
theorem query_apply (x0 : (⟨S4x2048x1024, .f32⟩ : BufTy).Contents (Elt Ideal)) (w : (⟨S1024x128, .f32⟩ : BufTy).Contents (Elt Ideal)) (b : (⟨S128, .f32⟩ : BufTy).Contents (Elt Ideal))
    (bi : Fin 4) (l : Fin 2048) (k : Fin 128) :
    val_main_v3 (F := Ideal) x0 w b (ix3 bi l k) = Spec.dense (arr3 x0) (arr2 w) (arr1 b) bi l k := by
  rw [val_main_v3_apply, val_main_v0_apply, val_main_v2_apply, val_main_v1_apply]
  have e1 : ∀ d : Fin 1024, lidx_main_v0 (ix3 bi l k) d = ix3 bi l d := fun d => funext fun a => by
    match a with | ⟨0, _⟩ => rfl | ⟨1, _⟩ => rfl | ⟨2, _⟩ => rfl
  have e2 : ∀ d : Fin 1024, ridx_main_v0 (ix3 bi l k) d = ix2 d k := fun d => funext fun a => by
    match a with | ⟨0, _⟩ => rfl | ⟨1, _⟩ => rfl
  have e3 : idx_main_v1 (idx_main_v2 (ix3 bi l k)) = ix1 k := funext fun a => by
    match a with | ⟨0, _⟩ => rfl
  simp only [e1, e2, e3]
  rfl

/-- The key projection of the reference at an entry is the dense layer. -/
theorem key_apply (x0 : (⟨S4x2048x1024, .f32⟩ : BufTy).Contents (Elt Ideal)) (w : (⟨S1024x128, .f32⟩ : BufTy).Contents (Elt Ideal)) (b : (⟨S128, .f32⟩ : BufTy).Contents (Elt Ideal))
    (bi : Fin 4) (l : Fin 2048) (k : Fin 128) :
    val_main_v7 (F := Ideal) x0 w b (ix3 bi l k) = Spec.dense (arr3 x0) (arr2 w) (arr1 b) bi l k := by
  rw [val_main_v7_apply, val_main_v4_apply, val_main_v6_apply, val_main_v5_apply]
  have e1 : ∀ d : Fin 1024, lidx_main_v4 (ix3 bi l k) d = ix3 bi l d := fun d => funext fun a => by
    match a with | ⟨0, _⟩ => rfl | ⟨1, _⟩ => rfl | ⟨2, _⟩ => rfl
  have e2 : ∀ d : Fin 1024, ridx_main_v4 (ix3 bi l k) d = ix2 d k := fun d => funext fun a => by
    match a with | ⟨0, _⟩ => rfl | ⟨1, _⟩ => rfl
  have e3 : idx_main_v5 (idx_main_v6 (ix3 bi l k)) = ix1 k := funext fun a => by
    match a with | ⟨0, _⟩ => rfl
  simp only [e1, e2, e3]
  rfl

/-- The value projection of the reference at an entry is the dense layer. -/
theorem value_apply (x0 : (⟨S4x2048x1024, .f32⟩ : BufTy).Contents (Elt Ideal)) (w : (⟨S1024x128, .f32⟩ : BufTy).Contents (Elt Ideal)) (b : (⟨S128, .f32⟩ : BufTy).Contents (Elt Ideal))
    (bi : Fin 4) (l : Fin 2048) (k : Fin 128) :
    val_main_v11 (F := Ideal) x0 w b (ix3 bi l k) = Spec.dense (arr3 x0) (arr2 w) (arr1 b) bi l k := by
  rw [val_main_v11_apply, val_main_v8_apply, val_main_v10_apply, val_main_v9_apply]
  have e1 : ∀ d : Fin 1024, lidx_main_v8 (ix3 bi l k) d = ix3 bi l d := fun d => funext fun a => by
    match a with | ⟨0, _⟩ => rfl | ⟨1, _⟩ => rfl | ⟨2, _⟩ => rfl
  have e2 : ∀ d : Fin 1024, ridx_main_v8 (ix3 bi l k) d = ix2 d k := fun d => funext fun a => by
    match a with | ⟨0, _⟩ => rfl | ⟨1, _⟩ => rfl
  have e3 : idx_main_v9 (idx_main_v10 (ix3 bi l k)) = ix1 k := funext fun a => by
    match a with | ⟨0, _⟩ => rfl
  simp only [e1, e2, e3]
  rfl

/-- The reference's result at an entry. -/
theorem ref_out (x0 : (⟨S4x2048x1024, .f32⟩ : BufTy).Contents (Elt Ideal)) (x1 : (⟨S1024x128, .f32⟩ : BufTy).Contents (Elt Ideal)) (x2 : (⟨S128, .f32⟩ : BufTy).Contents (Elt Ideal)) (x3 : (⟨S1024x128, .f32⟩ : BufTy).Contents (Elt Ideal)) (x4 : (⟨S128, .f32⟩ : BufTy).Contents (Elt Ideal)) (x5 : (⟨S1024x128, .f32⟩ : BufTy).Contents (Elt Ideal)) (x6 : (⟨S128, .f32⟩ : BufTy).Contents (Elt Ideal))
    (bi : Fin 4) (l : Fin 2048) (j : Fin 128) :
    val_main_v14 (F := Ideal) x0 x1 x2 x3 x4 x5 x6 (ix3 bi l j)
      = Spec.attn (Spec.dense (arr3 x0) (arr2 x1) (arr1 x2)) (Spec.dense (arr3 x0) (arr2 x3) (arr1 x4)) (Spec.dense (arr3 x0) (arr2 x5) (arr1 x6)) bi l j := by
  rw [val_main_v14_apply]
  unfold Spec.attn
  refine Finset.sum_congr rfl fun p _ => ?_
  have el : lidx_main_v14 (ix3 bi l j) p = ix3 bi l p := funext fun a => by
    match a with | ⟨0, _⟩ => rfl | ⟨1, _⟩ => rfl | ⟨2, _⟩ => rfl
  have er : ridx_main_v14 (ix3 bi l j) p = ix3 bi p j := funext fun a => by
    match a with | ⟨0, _⟩ => rfl | ⟨1, _⟩ => rfl | ⟨2, _⟩ => rfl
  rw [el, er, value_apply, val_main_v13_apply, val_main_v12_apply]
  have fl : ∀ f : Fin 128, lidx_main_v12 (ix3 bi l p) f = ix3 bi l f := fun f => funext fun a => by
    match a with | ⟨0, _⟩ => rfl | ⟨1, _⟩ => rfl | ⟨2, _⟩ => rfl
  have fr : ∀ f : Fin 128, ridx_main_v12 (ix3 bi l p) f = ix3 bi p f := fun f => funext fun a => by
    match a with | ⟨0, _⟩ => rfl | ⟨1, _⟩ => rfl | ⟨2, _⟩ => rfl
  simp only [fl, fr, query_apply, key_apply]
  rfl

/-- The reference's result array is the specification's. -/
theorem ref_final (x0 : (⟨S4x2048x1024, .f32⟩ : BufTy).Contents (Elt Ideal)) (x1 : (⟨S1024x128, .f32⟩ : BufTy).Contents (Elt Ideal)) (x2 : (⟨S128, .f32⟩ : BufTy).Contents (Elt Ideal)) (x3 : (⟨S1024x128, .f32⟩ : BufTy).Contents (Elt Ideal)) (x4 : (⟨S128, .f32⟩ : BufTy).Contents (Elt Ideal)) (x5 : (⟨S1024x128, .f32⟩ : BufTy).Contents (Elt Ideal)) (x6 : (⟨S128, .f32⟩ : BufTy).Contents (Elt Ideal)) :
    val_main_v14 (F := Ideal) x0 x1 x2 x3 x4 x5 x6 = Spec.result x0 x1 x2 x3 x4 x5 x6 :=
  funext fun i => (congrArg (val_main_v14 (F := Ideal) x0 x1 x2 x3 x4 x5 x6) (eq_ix3 i)).trans (ref_out x0 x1 x2 x3 x4 x5 x6 (i 0) (i 1) (i 2))

end Cert.ReferenceIdeal.RefVal

end
-- ==== Proof.lean ====
/- The two programs compute, over the extended reals, attention without softmax — cos(Q · Kᵀ) · V per batch entry — of
   three dense projections Q, K, V of the activations. The kernel does it in two calls (one projection against the three
   weight matrices joined along the lanes, with the joined bias row; then the attention, a block of 512 query rows at a
   time against all keys and values of the batch entry); the reference in one chain of host operations. Both calls'
   frames hold at any float instance (the same text serves the word-level program and the idealized one); at the ideal
   instance the result array of either program is `Spec.result` of the seven argument arrays, entry by entry: the same
   sums in the same order, so no property of the inputs is used. The idealization rewrote nothing. -/
import proofs.«118254_j6880537608586_1_alg».proof.Defs
import proofs.«118254_j6880537608586_1_alg».proof.Proof.Gen.Kernel
import proofs.«118254_j6880537608586_1_alg».proof.Proof.Gen.KernelIdeal
import proofs.«118254_j6880537608586_1_alg».proof.Proof.Gen.ReferenceIdeal
import proofs.«118254_j6880537608586_1_alg».proof.Proof.Gen.Pre_finite_inputs
import proofs.«118254_j6880537608586_1_alg».proof.Proof.Gen.ReferenceIdeal.Run
import proofs.«118254_j6880537608586_1_alg».proof.Proof.Bits.MainRun
import proofs.«118254_j6880537608586_1_alg».proof.Proof.Ideal.MainRun
import proofs.«118254_j6880537608586_1_alg».proof.Proof.Ideal.KernelValue
import proofs.«118254_j6880537608586_1_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : @Cert.frame_Kernel Cert.Kernel.Gen.facts Cert.Pre_finite_inputs.Gen.facts := fun m ρ _ =>
  (θ_run Cert.Kernel.defs _ _).mono (fun _ h c => (h c).2) (Cert.Kernel.Fr.run_main (F := Bits) m ρ)

/-- So does the idealized kernel. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Fr.run_main (F := Ideal) m ρ)

/-- So does the reference: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- From memories agreeing on the arguments both programs end with the result array at the specification's value. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KVal.kernel_final m ρ c), (h c).2⟩)
      (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefVal.ref_final,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
